-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x128 : Shape := ⟨3, ![16, 16384, 128]⟩
abbrev S16x16384 : Shape := ⟨2, ![16, 16384]⟩
abbrev S16x2048x1 : Shape := ⟨3, ![16, 2048, 1]⟩
abbrev S_ : Shape := ⟨0, ![]⟩

class Facts : Prop where
  bcast_S_S16x16384x128 : S_.BroadcastsInDim S16x16384x128 (![] : Fin 0 → Fin S16x16384x128.rank)
  reducesTo_S16x16384x128_S_d0_1_2 : S16x16384x128.ReducesTo [0, 1, 2] S_
  h_S_ : 0 < S_.numel
  bcast_S_S16x2048x1 : S_.BroadcastsInDim S16x2048x1 (![] : Fin 0 → Fin S16x2048x1.rank)
  reducesTo_S16x2048x1_S_d0_1_2 : S16x2048x1.ReducesTo [0, 1, 2] S_
  bcast_S_S16x16384 : S_.BroadcastsInDim S16x16384 (![] : Fin 0 → Fin S16x16384.rank)
  reducesTo_S16x16384_S_d0_1 : S16x16384.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16x16384x128 .f32) (main_arg1 : IVec S16x16384 32) (main_arg2 : FVec F S16x2048x1 .f32) (main_arg3 : IVec S16x16384 1) : IVec S_ 1 :=
  let main_v0 : FVec F S16x16384x128 .f32 := Host.absf main_arg0
  let main_cst : FVec F S_ .f32 := constant S_ .f32 0x7F800000#32
  let main_v1 : FVec F S16x16384x128 .f32 := broadcastInDim S16x16384x128 ![] bcast_S_S16x16384x128 main_cst
  let main_v2 : IVec S16x16384x128 1 := cmpf .olt main_v0 main_v1
  let main_c : IVec S_ 1 := constantI S_ 1 1#1
  let main_v3 : IVec S_ 1 := (fun x v => Host.reduce IntOp.andi x v reducesTo_S16x16384x128_S_d0_1_2 h_S_) main_v2 main_c
  let main_v4 : FVec F S16x2048x1 .f32 := Host.absf main_arg2
  let main_cst_0 : FVec F S_ .f32 := constant S_ .f32 0x7F800000#32
  let main_v5 : FVec F S16x2048x1 .f32 := broadcastInDim S16x2048x1 ![] bcast_S_S16x2048x1 main_cst_0
  let main_v6 : IVec S16x2048x1 1 := cmpf .olt main_v4 main_v5
  let main_c_1 : IVec S_ 1 := constantI S_ 1 1#1
  let main_v7 : IVec S_ 1 := (fun x v => Host.reduce IntOp.andi x v reducesTo_S16x2048x1_S_d0_1_2 h_S_) main_v6 main_c_1
  let main_v8 : IVec S_ 1 := andi main_v3 main_v7
  let main_c_2 : IVec S_ 32 := constantI S_ 32 0#32
  let main_v9 : IVec S16x16384 32 := broadcastInDim S16x16384 ![] bcast_S_S16x16384 main_c_2
  let main_v10 : IVec S16x16384 1 := cmpi .sge main_arg1 main_v9
  let main_c_3 : IVec S_ 1 := constantI S_ 1 1#1
  let main_v11 : IVec S_ 1 := (fun x v => Host.reduce IntOp.andi x v reducesTo_S16x16384_S_d0_1 h_S_) main_v10 main_c_3
  let main_v12 : IVec S_ 1 := andi main_v8 main_v11
  let main_c_4 : IVec S_ 32 := constantI S_ 32 2048#32
  let main_v13 : IVec S16x16384 32 := broadcastInDim S16x16384 ![] bcast_S_S16x16384 main_c_4
  let main_v14 : IVec S16x16384 1 := cmpi .slt main_arg1 main_v13
  let main_c_5 : IVec S_ 1 := constantI S_ 1 1#1
  let main_v15 : IVec S_ 1 := (fun x v => Host.reduce IntOp.andi x v reducesTo_S16x16384_S_d0_1 h_S_) main_v14 main_c_5
  fn_part1 (F := F) main_v12 main_v15
-- ==== Kernel.lean ====
abbrev S16x16384x128 : Shape := ⟨3, ![16, 16384, 128]⟩
abbrev S16x16384 : Shape := ⟨2, ![16, 16384]⟩
abbrev S16x2048x1 : Shape := ⟨3, ![16, 2048, 1]⟩
abbrev S_ : Shape := ⟨0, ![]⟩
abbrev S16x1x16384 : Shape := ⟨3, ![16, 1, 16384]⟩
abbrev S16x128x2048 : Shape := ⟨3, ![16, 128, 2048]⟩
abbrev S1x1x2048 : Shape := ⟨3, ![1, 1, 2048]⟩
abbrev S1x2048x128 : Shape := ⟨3, ![1, 2048, 128]⟩
abbrev S1x128x2048 : Shape := ⟨3, ![1, 128, 2048]⟩
abbrev S128x2048 : Shape := ⟨2, ![128, 2048]⟩
abbrev S1x2048 : Shape := ⟨2, ![1, 2048]⟩
abbrev S2048x128 : Shape := ⟨2, ![2048, 128]⟩
abbrev S2048x1 : Shape := ⟨2, ![2048, 1]⟩
abbrev S2048x2048 : Shape := ⟨2, ![2048, 2048]⟩
abbrev S16x2048x128 : Shape := ⟨3, ![16, 2048, 128]⟩

abbrev nBuf : Space → Nat
  | .hbm => 11
  | .vmem => 6
  | .smem => 0
  | _ => 0

abbrev bufTy : (tb : Table) → Fin (tcTables nBuf tb) → BufTy
  | .hbm, ⟨0, _⟩ => ⟨S16x16384x128, .f32⟩
  | .hbm, ⟨1, _⟩ => ⟨S16x16384, .i32⟩
  | .hbm, ⟨2, _⟩ => ⟨S16x2048x1, .f32⟩
  | .hbm, ⟨3, _⟩ => ⟨S16x16384, .i1⟩
  | .hbm, ⟨4, _⟩ => ⟨S_, .i32⟩
  | .hbm, ⟨5, _⟩ => ⟨S_, .i32⟩
  | .hbm, ⟨6, _⟩ => ⟨S16x16384, .i32⟩
  | .hbm, ⟨7, _⟩ => ⟨S16x16384, .i32⟩
  | .hbm, ⟨8, _⟩ => ⟨S16x1x16384, .i32⟩
  | .hbm, ⟨9, _⟩ => ⟨S16x128x2048, .f32⟩
  | .hbm, ⟨10, _⟩ => ⟨S16x2048x128, .f32⟩
  | .local _ .vmem, ⟨0, _⟩ => ⟨S1x1x2048, .i32⟩
  | .local _ .vmem, ⟨1, _⟩ => ⟨S1x1x2048, .i32⟩
  | .local _ .vmem, ⟨2, _⟩ => ⟨S1x2048x128, .f32⟩
  | .local _ .vmem, ⟨3, _⟩ => ⟨S1x2048x128, .f32⟩
  | .local _ .vmem, ⟨4, _⟩ => ⟨S1x128x2048, .f32⟩
  | .local _ .vmem, ⟨5, _⟩ => ⟨S1x128x2048, .f32⟩
  | _, _ => ⟨S16x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16x16384 : S_.BroadcastsInDim S16x16384 (![] : Fin 0 → Fin S16x16384.rank)
  shapeCasts_S16x16384_S16x1x16384 : S16x16384.ShapeCasts S16x1x16384
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  iota_S2048x1_d0_w32 : S2048x1.Iotas .tc 32 [0]
  broadcasts_S1x2048_S2048x2048 : S1x2048.Broadcasts S2048x2048
  broadcasts_S2048x1_S2048x2048 : S2048x1.Broadcasts S2048x2048
  natLt_1_32 : 1 < 32
  bitsLt_bf16_f32 : FTy.bits .bf16 < FTy.bits .f32
  transposes_S16x128x2048_S16x2048x128_0_2_1 : S16x128x2048.Transposes [0, 2, 1] S16x2048x128
  dot_S2048x128_S2048x2048_S128x2048_0_1_1_0_n_n_wf : DotDims.WF S2048x128 S2048x2048 S128x2048 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S16x1x16384.size a
  hwx0_0 : ∀ i : grid0.Coords, EltTy.bits .i32 = 32 ∨ (Rect.block (s := S16x1x16384) S1x1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x16384x128.size a
  hwx0_1 : ∀ i : grid0.Coords, EltTy.bits .f32 = 32 ∨ (Rect.block (s := S16x16384x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S16x128x2048.size a
  hwx0_2 : ∀ i : grid0.Coords, EltTy.bits .f32 = 32 ∨ (Rect.block (s := S16x128x2048) S1x128x2048.size (cc0_transform_2 i) (hinb0_2 i)).WholeWords (EltTy.packing .f32)

variable [Facts₀]

def dot_S2048x128_S2048x2048_S128x2048_0_1_1_0_n_n : DotDims S2048x128 S2048x2048 S128x2048 where
  lhsContracting := [0]
  rhsContracting := [1]
  lhsNonContracting := [1]
  rhsNonContracting := [0]
  lhsBatch := []
  rhsBatch := []
  wf := dot_S2048x128_S2048x2048_S128x2048_0_1_1_0_n_n_wf

abbrev win0_0 : Pipeline.Window sig grid0 :=
  Pipeline.Window.ofSpec (Memref.whole main_v1) S1x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x16384x128 : Shape := ⟨3, ![16, 16384, 128]⟩
abbrev S16x16384 : Shape := ⟨2, ![16, 16384]⟩
abbrev S16x2048x1 : Shape := ⟨3, ![16, 2048, 1]⟩
abbrev S16 : Shape := ⟨1, ![16]⟩
abbrev S16x1 : Shape := ⟨2, ![16, 1]⟩
abbrev S_ : Shape := ⟨0, ![]⟩
abbrev S262144 : Shape := ⟨1, ![262144]⟩
abbrev S16x16384x1 : Shape := ⟨3, ![16, 16384, 1]⟩
abbrev S262144x128 : Shape := ⟨2, ![262144, 128]⟩
abbrev S32768x128 : Shape := ⟨2, ![32768, 128]⟩
abbrev S262144x1 : Shape := ⟨2, ![262144, 1]⟩
abbrev S16x2048x128 : Shape := ⟨3, ![16, 2048, 128]⟩

abbrev nBuf : Space → Nat
  | .hbm => 23
  | .vmem => 0
  | .smem => 0
  | _ => 0

abbrev bufTy : (tb : Table) → Fin (tcTables nBuf tb) → BufTy
  | .hbm, ⟨0, _⟩ => ⟨S16x16384x128, .f32⟩
  | .hbm, ⟨1, _⟩ => ⟨S16x16384, .i32⟩
  | .hbm, ⟨2, _⟩ => ⟨S16x2048x1, .f32⟩
  | .hbm, ⟨3, _⟩ => ⟨S16x16384, .i1⟩
  | .hbm, ⟨4, _⟩ => ⟨S16, .i32⟩
  | .hbm, ⟨5, _⟩ => ⟨S16x1, .i32⟩
  | .hbm, ⟨6, _⟩ => ⟨S_, .i32⟩
  | .hbm, ⟨7, _⟩ => ⟨S16x1, .i32⟩
  | .hbm, ⟨8, _⟩ => ⟨S16x1, .i32⟩
  | .hbm, ⟨9, _⟩ => ⟨S16x16384, .i32⟩
  | .hbm, ⟨10, _⟩ => ⟨S16x16384, .i32⟩
  | .hbm, ⟨11, _⟩ => ⟨S262144, .i32⟩
  | .hbm, ⟨12, _⟩ => ⟨S16x16384x1, .i1⟩
  | .hbm, ⟨13, _⟩ => ⟨S_, .f32⟩
  | .hbm, ⟨14, _⟩ => ⟨S16x16384x128, .i1⟩
  | .hbm, ⟨15, _⟩ => ⟨S16x16384x128, .f32⟩
  | .hbm, ⟨16, _⟩ => ⟨S16x16384x128, .f32⟩
  | .hbm, ⟨17, _⟩ => ⟨S262144x128, .f32⟩
  | .hbm, ⟨18, _⟩ => ⟨S_, .f32⟩
  | .hbm, ⟨19, _⟩ => ⟨S32768x128, .f32⟩
  | .hbm, ⟨20, _⟩ => ⟨S262144x1, .i32⟩
  | .hbm, ⟨21, _⟩ => ⟨S32768x128, .f32⟩
  | .hbm, ⟨22, _⟩ => ⟨S16x2048x128, .f32⟩
  | _, _ => ⟨S16x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S_S16x1 : S_.BroadcastsInDim S16x1 (![] : Fin 0 → Fin S16x1.rank)
  bcast_S16x1_S16x16384_0_1 : S16x1.BroadcastsInDim S16x16384 (![0, 1] : Fin 2 → Fin S16x16384.rank)
  shapeCasts_S16x16384_S262144 : S16x16384.ShapeCasts S262144
  bcast_S16x16384_S16x16384x1_0_1 : S16x16384.BroadcastsInDim S16x16384x1 (![0, 1] : Fin 2 → Fin S16x16384x1.rank)
  bcast_S16x16384x1_S16x16384x128_0_1_2 : S16x16384x1.BroadcastsInDim S16x16384x128 (![0, 1, 2] : Fin 3 → Fin S16x16384x128.rank)
  bcast_S_S16x16384x128 : S_.BroadcastsInDim S16x16384x128 (![] : Fin 0 → Fin S16x16384x128.rank)
  shapeCasts_S16x16384x128_S262144x128 : S16x16384x128.ShapeCasts S262144x128
  bcast_S_S32768x128 : S_.BroadcastsInDim S32768x128 (![] : Fin 0 → Fin S32768x128.rank)
  bcast_S262144_S262144x1_0 : S262144.BroadcastsInDim S262144x1 (![0] : Fin 1 → Fin S262144x1.rank)
  shapeCasts_S32768x128_S16x2048x128 : S32768x128.ShapeCasts S16x2048x128
  scatter_S32768x128_S262144x1_S262144x128_1_0_0_1_wf : ScatterDims.WF S32768x128 S262144x1 S262144x128 [1] [0] [0] 1

variable [Facts₀]

def scatter_S32768x128_S262144x1_S262144x128_1_0_0_1 : ScatterDims S32768x128 S262144x1 S262144x128 where
  updateWindowDims := [1]
  insertedWindowDims := [0]
  scatterDimsToOperandDims := [0]
  indexVectorDim := 1
  wf := scatter_S32768x128_S262144x1_S262144x128_1_0_0_1_wf

class Facts : Prop extends Facts₀ where

variable [Facts]
-- ==== Proof.Spec.lean ====
/-
  The batched masked segment sum, as one function of the three argument arrays.

  For a batch `b`, a segment `n` and a feature `f` the result is the sum, over the rows `l` of batch `b`, of
  `data[b, l, f]` over exactly those rows that are kept by the mask and whose segment word is `n`:

      segSum[b, n, f] = Σ_l [mask[b, l] ∧ ids[b, l] = n] · data[b, l, f].

  A row whose word names no segment of `[0, 2048)` contributes to no entry. Both programs are proved to
  end at this function: the kernel for every input (a masked row is sent to the word 2048, which names no
  segment, and an out-of-range word matches no row of the one-hot), the reference for words in
  `[0, 2048)` (where adding the batch offset `2048 · b` keeps every word inside its own batch's block).
-/
import Idealize.ShloMosaic.Lib.ValueIdx
import Idealize.ShloMosaic.PureOps.Ideal

noncomputable section

namespace Cert.SegSum

open Idealize.ShloMosaic Idealize.ShloMosaic.ValueIdx

/-- The shapes of the arguments and of the result. -/
abbrev SData : Shape := ⟨3, ![16, 16384, 128]⟩
abbrev SIds : Shape := ⟨2, ![16, 16384]⟩
abbrev SOut : Shape := ⟨3, ![16, 2048, 128]⟩

/-- Row `l` of batch `b` counts for segment `n`: the mask keeps it and its word is `n`. -/
def counts (ids : SIds.Idx → BitVec 32) (mask : SIds.Idx → BitVec 1) (b : Fin 16) (n : Fin 2048) (l : Fin 16384) : Prop :=
  mask (ix2 b l) = 1#1 ∧ ids (ix2 b l) = BitVec.ofNat 32 n.val

instance (ids : SIds.Idx → BitVec 32) (mask : SIds.Idx → BitVec 1) (b : Fin 16) (n : Fin 2048) (l : Fin 16384) :
    Decidable (counts ids mask b n l) := by unfold counts; infer_instance

/-- What row `l` of batch `b` adds to entry `(b, n, f)`. -/
def term (data : SData.Idx → EReal) (ids : SIds.Idx → BitVec 32) (mask : SIds.Idx → BitVec 1)
    (b : Fin 16) (n : Fin 2048) (f : Fin 128) (l : Fin 16384) : EReal :=
  if counts ids mask b n l then data (ix3 b l f) else 0

/-- The segment sum at the coordinates `(b, n, f)`. -/
def segSumAt (data : SData.Idx → EReal) (ids : SIds.Idx → BitVec 32) (mask : SIds.Idx → BitVec 1)
    (b : Fin 16) (n : Fin 2048) (f : Fin 128) : EReal :=
  ∑ l : Fin 16384, term data ids mask b n f l

/-- The segment sum as an array `[16, 2048, 128]`. -/
def segSum (data : SData.Idx → EReal) (ids : SIds.Idx → BitVec 32) (mask : SIds.Idx → BitVec 1) : SOut.Idx → EReal :=
  fun i => segSumAt data ids mask (i 0) (i 1) (i 2)

theorem segSum_apply (data : SData.Idx → EReal) (ids : SIds.Idx → BitVec 32) (mask : SIds.Idx → BitVec 1)
    (b : Fin 16) (n : Fin 2048) (f : Fin 128) :
    segSum data ids mask (ix3 b n f) = segSumAt data ids mask b n f := rfl

end Cert.SegSum

end
-- ==== Proof.PreRange.lean ====
import proofs.«411509_j9783935500521_3_alg».proof.Pre_finite_inputs
import Idealize.ShloMosaic.Lib.ValueIdx
import Idealize.ShloMosaic.Lib.ReduceAll

noncomputable section

namespace Cert.PreRange

open Idealize.ShloMosaic Idealize.ShloMosaic.ValueIdx Cert.Pre_finite_inputs

/-- A word that is signed-at-least the broadcast scalar 0 and signed-below the broadcast scalar 2048,
    both comparisons read at one element, lies in [0, 2048) as a signed integer. -/
theorem range_of_bits (w : BitVec 32)
    (hge : IntOp.cmpi .sge w 0#32 = 1#1) (hlt : IntOp.cmpi .slt w 2048#32 = 1#1) :
    0 ≤ w.toInt ∧ w.toInt < 2048 := by
  have h1 : (0#32 : BitVec 32).toInt ≤ w.toInt := IntOp.cmpi_sge.1 hge
  have h2 : w.toInt < (2048#32 : BitVec 32).toInt := IntOp.cmpi_slt.1 hlt
  have e0 : (0#32 : BitVec 32).toInt = 0 := by decide
  have e1 : (2048#32 : BitVec 32).toInt = 2048 := by decide
  rw [e0] at h1
  rw [e1] at h2
  exact ⟨h1, h2⟩

theorem range_of_pre {F : FTy → Type} [FloatOps F] [Cert.Pre_finite_inputs.Facts]
    (x0 : FVec F S16x16384x128 .f32) (x1 : IVec S16x16384 32) (x2 : FVec F S16x2048x1 .f32) (x3 : IVec S16x16384 1)
    (h : Cert.Pre_finite_inputs.fn (F := F) x0 x1 x2 x3 = fun _ => 1#1) (b : Fin 16) (l : Fin 16384) :
    0 ≤ (x1 (ix2 b l)).toInt ∧ (x1 (ix2 b l)).toInt < 2048 := by
  -- the predicate at its one rank-0 index
  have h0 := congrFun h ix0
  dsimp only [fn, fn_part1] at h0
  -- split the conjunction of the four jnp.all bits; keep the two over the ids
  obtain ⟨h12, h15⟩ := IntOp.andi_eq_one.1 h0
  obtain ⟨_, h11⟩ := IntOp.andi_eq_one.1 h12
  -- the rank-0 result shape has a single index, so each jnp.all that is 1 has a 1 at every element
  haveI : Subsingleton S_.Idx := ⟨fun a b => funext fun d => d.elim0⟩
  have hge := Host.reduce_andi_all _ _ _ _ _ h11 (ix2 b l)
  have hlt := Host.reduce_andi_all _ _ _ _ _ h15 (ix2 b l)
  -- the compared operand is a broadcast scalar constant: at any element it is that constant
  exact range_of_bits (x1 (ix2 b l)) hge hlt

end Cert.PreRange

end
-- ==== Proof.KPay.lean ====
import proofs.«411509_j9783935500521_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ### The kernel body's two stored values, read at an index

The first is a block of zeros. The second is the running output block plus the product of the data rows with a one-hot
matrix: the product contracts the left operand's axis 0 with the right operand's axis 1, so at the output index (f, n)
and the contraction position j the left operand (the data rows) is read at (j, f) and the right one (the one-hot
matrix) at (n, j). The one-hot entry (n, j) compares segment word j with the word of n, so it is the extended real 1
or 0, and `x * 1 = x`, `x * 0 = 0` hold for every extended real. -/

/-! ### The product's index maps, coordinate by coordinate -/

theorem lhs_0 (j : S128x2048.Idx) (k : dot_S2048x128_S2048x2048_S128x2048_0_1_1_0_n_n.contr.Idx) :
    (dot_S2048x128_S2048x2048_S128x2048_0_1_1_0_n_n.lhsIdx j k 0 : ℕ) = k ⟨0, by decide⟩ := by
  simp [DotDims.lhsIdx, dot_S2048x128_S2048x2048_S128x2048_0_1_1_0_n_n]; rfl
theorem lhs_1 (j : S128x2048.Idx) (k : dot_S2048x128_S2048x2048_S128x2048_0_1_1_0_n_n.contr.Idx) :
    (dot_S2048x128_S2048x2048_S128x2048_0_1_1_0_n_n.lhsIdx j k 1 : ℕ) = j 0 := by
  simp [DotDims.lhsIdx, dot_S2048x128_S2048x2048_S128x2048_0_1_1_0_n_n]; rfl
theorem rhs_0 (j : S128x2048.Idx) (k : dot_S2048x128_S2048x2048_S128x2048_0_1_1_0_n_n.contr.Idx) :
    (dot_S2048x128_S2048x2048_S128x2048_0_1_1_0_n_n.rhsIdx j k 0 : ℕ) = j 1 := by
  simp [DotDims.rhsIdx, dot_S2048x128_S2048x2048_S128x2048_0_1_1_0_n_n]; rfl
theorem rhs_1 (j : S128x2048.Idx) (k : dot_S2048x128_S2048x2048_S128x2048_0_1_1_0_n_n.contr.Idx) :
    (dot_S2048x128_S2048x2048_S128x2048_0_1_1_0_n_n.rhsIdx j k 1 : ℕ) = k ⟨0, by decide⟩ := by
  simp [DotDims.rhsIdx, dot_S2048x128_S2048x2048_S128x2048_0_1_1_0_n_n]; rfl

/-- The product read at (f, n): the sum over the contracted coordinate of the left operand at (j, f) times the right
    operand at (n, j). -/
theorem matmul_read (A : FVec Ideal S2048x128 .bf16) (B : FVec Ideal S2048x2048 .bf16) (f : Fin 128) (n : Fin 2048) :
    matmul (F := Ideal) dot_S2048x128_S2048x2048_S128x2048_0_1_1_0_n_n none A B
        (constant (F := Ideal) S128x2048 .f32 0x00000000#32) (ix2 f n)
      = ∑ j : Fin 2048, A (ix2 j f) * B (ix2 n j) := by
  show FloatOps.matmul _ none A B _ (ix2 f n) = _
  rw [Ideal.matmul_constant_zero_apply,
    ← Equiv.sum_comp (contrEquiv1 dot_S2048x128_S2048x2048_S128x2048_0_1_1_0_n_n 2048 rfl rfl).symm]
  refine Finset.sum_congr rfl fun c _ => ?_
  have hk := contrEquiv1_symm_val dot_S2048x128_S2048x2048_S128x2048_0_1_1_0_n_n 2048 rfl rfl c
  have l2 : dot_S2048x128_S2048x2048_S128x2048_0_1_1_0_n_n.lhsIdx (ix2 f n)
      ((contrEquiv1 _ 2048 rfl rfl).symm c) = ix2 c f := by
    funext ax; apply Fin.ext
    match ax with
    | ⟨0, _⟩ => exact (lhs_0 _ _).trans hk
    | ⟨1, _⟩ => exact lhs_1 _ _
  have r2 : dot_S2048x128_S2048x2048_S128x2048_0_1_1_0_n_n.rhsIdx (ix2 f n)
      ((contrEquiv1 _ 2048 rfl rfl).symm c) = ix2 n c := by
    funext ax; apply Fin.ext
    match ax with
    | ⟨0, _⟩ => exact rhs_0 _ _
    | ⟨1, _⟩ => exact (rhs_1 _ _).trans hk
  rw [l2, r2]

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot factor: the word `1` or `0` of a comparison, widened and converted, is the extended real 1 or 0. -/
theorem onehot_word (x y : BitVec 32) :
    (FloatOps.sitofp (F := Ideal) .f32 ((IntOp.cmpi .eq x y).setWidth 32) : EReal) = if x = y then 1 else 0 := by
  show (((((BitVec.ofBool (x == y)).setWidth 32).toInt : ℤ) : ℝ) : EReal) = _
  by_cases h : x = y
  · have h1 : ((BitVec.ofBool true).setWidth 32).toInt = 1 := by decide
    rw [if_pos h, beq_iff_eq.mpr h, h1]
    simp
  · have h0 : ((BitVec.ofBool false).setWidth 32).toInt = 0 := by decide
    rw [if_neg h, beq_eq_false_iff_ne.mpr h, h0]
    simp

/-- An integer comparison at an index compares the elements. -/
theorem cmpi_apply {s : Shape} {w : ℕ} (p : CmpIPredicate) (x y : IVec s w) (i : s.Idx) :
    cmpi p x y i = IntOp.cmpi p (x i) (y i) := rfl

theorem pay1_apply (f : Fin 128) (n : Fin 2048) :
    k0_pay1 (F := Ideal) (ix3 (0 : Fin 1) f n) = 0 := by
  unfold k0_pay1
  rw [shapeCast_ab_1ab_apply, broadcast_apply]
  exact Ideal.ofBits_zero_f32

theorem pay2_apply (x0 : Vec Ideal S1x1x2048 .i32) (x1 : Vec Ideal S1x2048x128 .f32) (acc : Vec Ideal S1x128x2048 .f32)
    (f : Fin 128) (n : Fin 2048) :
    k0_pay2 (F := Ideal) x0 x1 acc (ix3 (0 : Fin 1) f n)
      = acc (ix3 (0 : Fin 1) f n)
        + ∑ j : Fin 2048, (if x0 (ix3 (0 : Fin 1) (0 : Fin 1) j) = BitVec.ofNat 32 n.val then x1 (ix3 (0 : Fin 1) j f) else 0) := by
  unfold k0_pay2
  rw [shapeCast_ab_1ab_apply, addf_apply, shapeCast_1ab_ab_apply, matmul_read]
  congr 1
  refine Finset.sum_congr rfl fun j _ => ?_
  rw [truncf_apply, truncf_apply, shapeCast_1ab_ab_apply, sitofp_apply, extui_apply, cmpi_apply,
    broadcastTo_1b_ab_apply, broadcastTo_a1_ab_apply, shapeCast_1ab_ab_apply, iota_single_apply, onehot_word]
  by_cases h : x0 (ix3 (0 : Fin 1) (0 : Fin 1) j) = BitVec.ofNat 32 n.val
  · rw [if_pos h, if_pos h, mul_one]
  · rw [if_neg h, if_neg h, mul_zero]

end Cert.KernelIdeal.Pay

end
-- ==== Proof.KValue.lean ====
/-
  The kernel's result, read off its frame run: the batched masked segment sum of the argument arrays.

  The grid is `(16, 8)`: point `t` is tile `t % 8` of batch `t / 8`, and the output block of batch `b` stays in its
  staging buffer over the batch's eight tiles. The body's last store leaves there the payload of the tile's 2048
  words, its 2048 data rows and the running block; on the first tile of a batch the running block is the zero block
  the body has just stored. At `(f, s)` the payload is the running block plus `Σ_j [word_j = s] · row_j[f]`.

  The words are the ids where the mask keeps the row and the word 2048 elsewhere; 2048 names no segment, so a tile's
  sum is the sum of the terms `[mask ∧ id = s] · data` of its rows (`tile_sum`). By induction on the grid point the
  running block after tile `k` holds the terms of the rows `0 … 2048 (k + 1) - 1` of the batch (`outsAt_eq`). The block
  is written back after the eighth tile only, where it holds all 16384 terms (`flushed_eq`); those eight-th tiles'
  blocks cover the array (`cover`). The line after the region exchanges the last two axes (`tail_eq`,
  `transposed_eq`).
-/
import proofs.«411509_j9783935500521_3_alg».proof.Defs
import proofs.«411509_j9783935500521_3_alg».proof.Proof.Gen.KernelIdeal.Frame
import proofs.«411509_j9783935500521_3_alg».proof.Proof.Spec
import proofs.«411509_j9783935500521_3_alg».proof.Proof.KPay
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

section Pieces

variable {F : FTy → Type} [FloatOps F]

theorem hz : (![0, 0, 0] : Fin 3 → Nat) = fun _ => 0 := funext fun a => by fin_cases a <;> rfl

/-- Away from the first tile of a batch the body leaves, in the output block holding `xo`, the payload of the
    tile's words `x0`, its data rows `x1` and `xo`: its one store covers the block, and its loads read the whole
    buffers. -/
theorem out_B (c : Dev nD) (i : grid0.Coords) (a2 : Memref sig .tc .vmem S1x1x2048 .i32) (h2 : a2.IsWhole)
    (a3 : Memref sig .tc .vmem S1x2048x128 .f32) (h3 : a3.IsWhole) (a4 : Memref sig .tc .vmem S1x128x2048 .f32) (h4 : a4.IsWhole)
    (hc : ¬cond0_0 i) (x0 : Vec F S1x1x2048 .i32) (x1 : Vec F S1x2048x128 .f32) (xo : Vec F S1x128x2048 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S1x1x2048) hz,
    View.ld_unit_zero (S := S1x2048x128) hz, View.ld_unit_zero (S := S1x128x2048) hz]

/-- On the first tile of a batch the body first stores the zero block, then reads it back as the running block:
    it leaves the payload of the tile's words and rows over the zero block. -/
theorem out_A (c : Dev nD) (i : grid0.Coords) (a2 : Memref sig .tc .vmem S1x1x2048 .i32) (h2 : a2.IsWhole)
    (a3 : Memref sig .tc .vmem S1x2048x128 .f32) (h3 : a3.IsWhole) (a4 : Memref sig .tc .vmem S1x128x2048 .f32) (h4 : a4.IsWhole)
    (hc : cond0_0 i) (x0 : Vec F S1x1x2048 .i32) (x1 : Vec F S1x2048x128 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x128x2048) hz, View.readCov_unit_zero (S := S1x128x2048) _ hz]
  simp only [View.readAt_eq_ld, h2.read_unread, h3.read_unread, View.ld_unit_zero (S := S1x1x2048) hz,
    View.ld_unit_zero (S := S1x2048x128) hz, View.ld_unit_zero (S := S1x128x2048) hz]

end Pieces

section Host

variable (m : (ℓ : Loc nD τ sig) → Buf (Elt Ideal) ℓ) (ρ : Dev nD → PrngReg)

/-- The words the region finds: the ids where the mask keeps the row, the word 2048 elsewhere, with a unit axis
    inserted. -/
theorem V_words (c : Dev nD) : (V m c main_v1 : S16x1x16384.Idx → BitVec 32)
    = shapeCast S16x1x16384 (select (m ((c : Thread nD τ).loc main_arg3)) (m ((c : Thread nD τ).loc main_arg1))
        (broadcastInDim S16x16384 ![] bcast_S_S16x16384 (constantI S_ 32 2048#32))) shapeCasts_S16x16384_S16x1x16384 := by
  dsimp only [Gen.V, Gen.V0]
  simp only [Gen.hostOps0, Gen.hostOps0_1, Gen.hostOps0_2, List.flatten_cons, List.flatten_nil, List.append_nil, List.cons_append,
    List.nil_append]
  after_results
  rfl

end Host

section Blocks

variable (m : (ℓ : Loc nD τ sig) → Buf (Elt Ideal) ℓ) (ρ : Dev nD → PrngReg)

/-- The word the region finds for row `l` of batch `b`. -/
theorem V_words_apply (c : Dev nD) (b : Fin 16) (l : Fin 16384) :
    (V m c main_v1 : S16x1x16384.Idx → BitVec 32) (ix3 b (0 : Fin 1) l)
      = if m ((c : Thread nD τ).loc main_arg3) (ix2 b l) = 1#1 then m ((c : Thread nD τ).loc main_arg1) (ix2 b l) else 2048#32 := by
  rw [V_words]
  refine (shapeCast_apply _ shapeCasts_S16x16384_S16x1x16384 (ix3 b (0 : Fin 1) l) (ix2 b l) ?_).trans ?_
  · rw [Shape.rowMajor_val_two, Shape.rowMajor_val_three]
    show b.val * 16384 + l.val = (b.val * 1 + 0) * 16384 + l.val
    omega
  · rfl

/-- The grid's index maps, decided over its 128 points: point `t` is tile `t % 8` of batch `t / 8`. -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- The tile of words and the tile of data rows the body is run on at point `t`. -/
abbrev wordsAt (c : Dev nD) (t : Fin cfg0.N) : Vec Ideal S1x1x2048 .i32 := iblk m c 0 t
abbrev rowsAt (c : Dev nD) (t : Fin cfg0.N) : Vec Ideal S1x2048x128 .f32 := iblk m c 1 t

theorem wordsAt_apply (c : Dev nD) (t : Fin cfg0.N) (j : Fin 2048) (b : Fin 16) (l : Fin 16384)
    (hb : b.val = t.val / 8) (hl : l.val = t.val % 8 * 2048 + j.val) :
    wordsAt m c t (ix3 (0 : Fin 1) (0 : Fin 1) j) = (V m c main_v1 : S16x1x16384.Idx → BitVec 32) (ix3 b (0 : Fin 1) l) := by
  obtain ⟨e0, e1, e2, -⟩ := idx_facts t
  unfold wordsAt iblk
  rw [View.read_apply]
  show V m c main_v1 (((cfg0.win 0).blk t).view.emb (ix3 (0 : Fin 1) (0 : Fin 1) j)) = V m c main_v1 (ix3 b (0 : Fin 1) l)
  congr 1
  funext a
  apply Fin.ext
  match a with
  | ⟨0, _⟩ => show win0_0.index t (0 : Fin 3) * 1 + 1 * 0 = b.val; omega
  | ⟨1, _⟩ => show win0_0.index t (1 : Fin 3) * 1 + 1 * 0 = 0; omega
  | ⟨2, _⟩ => show win0_0.index t (2 : Fin 3) * 2048 + 1 * j.val = l.val; omega

theorem rowsAt_apply (c : Dev nD) (t : Fin cfg0.N) (j : Fin 2048) (f : Fin 128) (b : Fin 16) (l : Fin 16384)
    (hb : b.val = t.val / 8) (hl : l.val = t.val % 8 * 2048 + j.val) :
    rowsAt m c t (ix3 (0 : Fin 1) j f) = m ((c : Thread nD τ).loc main_arg0) (ix3 b l f) := by
  obtain ⟨-, -, -, e0, e1, e2, -⟩ := idx_facts t
  unfold rowsAt iblk
  rw [View.read_apply]
  show V m c main_arg0 (((cfg0.win 1).blk t).view.emb (ix3 (0 : Fin 1) j f)) = _
  rw [V_main_arg0]
  congr 1
  funext a
  apply Fin.ext
  match a with
  | ⟨0, _⟩ => show win0_1.index t (0 : Fin 3) * 1 + 1 * 0 = b.val; omega
  | ⟨1, _⟩ => show win0_1.index t (1 : Fin 3) * 2048 + 1 * j.val = l.val; omega
  | ⟨2, _⟩ => show win0_1.index t (2 : Fin 3) * 128 + 1 * f.val = f.val; omega

end Blocks

section Invariant

variable (m : (ℓ : Loc nD τ sig) → Buf (Elt Ideal) ℓ) (ρ : Dev nD → PrngReg)

/-- What row `l` of batch `b` adds to entry `(b, s, f)`, as a function of a natural `l` (nothing past the last row). -/
def termN (c : Dev nD) (b : Fin 16) (s : Fin 2048) (f : Fin 128) (l : ℕ) : EReal :=
  if h : l < 16384 then
    Cert.SegSum.term (m ((c : Thread nD τ).loc main_arg0)) (m ((c : Thread nD τ).loc main_arg1)) (m ((c : Thread nD τ).loc main_arg3)) b s f ⟨l, h⟩
  else 0

/-- The word 2048, which a masked row is sent to, names no segment. -/
theorem word_ne (s : Fin 2048) : (2048#32 : BitVec 32) ≠ BitVec.ofNat 32 s.val := by
  intro h
  have h' := congrArg BitVec.toNat h
  simp only [BitVec.toNat_ofNat] at h'
  have := s.isLt
  omega

/-- One tile's contribution: the payload's sum over the 2048 rows of tile `t % 8` of batch `t / 8`, a row counted
    when its word (the id where the mask keeps it, 2048 elsewhere) is `s`, is the sum of the rows' terms. -/
theorem tile_sum (c : Dev nD) (t : Fin cfg0.N) (b : Fin 16) (hb : b.val = t.val / 8) (s : Fin 2048) (f : Fin 128) :
    (∑ j : Fin 2048, (if wordsAt m c t (ix3 (0 : Fin 1) (0 : Fin 1) j) = BitVec.ofNat 32 s.val then rowsAt m c t (ix3 (0 : Fin 1) j f) else 0))
      = ∑ j ∈ Finset.range 2048, termN m c b s f (t.val % 8 * 2048 + j) := by
  rw [Finset.sum_range]
  refine Finset.sum_congr rfl (fun j _ => ?_)
  have hj := j.isLt
  have hl : t.val % 8 * 2048 + j.val < 16384 := by omega
  unfold termN
  rw [dif_pos hl, wordsAt_apply m c t j b ⟨_, hl⟩ hb rfl, rowsAt_apply m c t j f b ⟨_, hl⟩ hb rfl, V_words_apply]
  unfold Cert.SegSum.term
  by_cases hM : m ((c : Thread nD τ).loc main_arg3) (ix2 b ⟨t.val % 8 * 2048 + j.val, hl⟩) = 1#1
  · rw [if_pos hM]
    by_cases hI : m ((c : Thread nD τ).loc main_arg1) (ix2 b ⟨t.val % 8 * 2048 + j.val, hl⟩) = BitVec.ofNat 32 s.val
    · rw [if_pos hI, if_pos (show Cert.SegSum.counts _ _ b s _ from ⟨hM, hI⟩)]
    · rw [if_neg hI, if_neg (fun h : Cert.SegSum.counts _ _ b s _ => hI h.2)]
  · rw [if_neg hM, if_neg (word_ne s), if_neg (fun h : Cert.SegSum.counts _ _ b s _ => hM h.1)]

/-- THE RUNNING BLOCK. After point `n` — tile `n % 8` of batch `n / 8` — the output block holds, at `(f, s)`, the sum
    of the terms of the batch's rows in the tiles up to this one: the first tile of a batch starts from the zero
    block, every later tile adds to what the point before left. -/
theorem outsAt_eq (c : Dev nD) : ∀ (n : ℕ) (h : n < cfg0.N) (b : Fin 16) (hb : b.val = n / 8) (s : Fin 2048) (f : Fin 128),
    outsAt0 m c n h (ix3 (0 : Fin 1) f s) = ∑ l ∈ Finset.range ((n % 8 + 1) * 2048), termN m c b s f l
  | 0, h, b, hb, s, f => by
    rw [outsAt0_A m c ⟨0, h⟩ rfl, out_A]
    refine (Cert.KernelIdeal.Pay.pay2_apply (wordsAt m c ⟨0, h⟩) (rowsAt m c ⟨0, h⟩) (k0_pay1 (F := Ideal)) f s).trans ?_
    rw [Cert.KernelIdeal.Pay.pay1_apply, zero_add, tile_sum m c ⟨0, h⟩ b hb s f]
    refine Finset.sum_congr rfl (fun j _ => ?_)
    show termN m c b s f (0 % 8 * 2048 + j) = _
    rw [show 0 % 8 * 2048 + j = j from by omega]
  | n + 1, h, b, hb, s, f => by
    by_cases h0 : (n + 1) % 8 = 0
    · rw [outsAt0_A m c ⟨n + 1, h⟩ h0, out_A]
      refine (Cert.KernelIdeal.Pay.pay2_apply (wordsAt m c ⟨n + 1, h⟩) (rowsAt m c ⟨n + 1, h⟩) (k0_pay1 (F := Ideal)) f s).trans ?_
      rw [Cert.KernelIdeal.Pay.pay1_apply, zero_add, tile_sum m c ⟨n + 1, h⟩ b hb s f]
      show ∑ j ∈ Finset.range 2048, termN m c b s f ((n + 1) % 8 * 2048 + j) = _
      rw [h0]
      refine Finset.sum_congr rfl (fun j _ => ?_)
      rw [show 0 * 2048 + j = j from by omega]
    · rw [outsAt0_B m c ⟨n + 1, h⟩ h0, out_B]
      refine (Cert.KernelIdeal.Pay.pay2_apply (wordsAt m c ⟨n + 1, h⟩) (rowsAt m c ⟨n + 1, h⟩) (outsAt0 m c n (Nat.lt_of_succ_lt h)) f s).trans ?_
      rw [outsAt_eq c n (Nat.lt_of_succ_lt h) b (by omega) s f, tile_sum m c ⟨n + 1, h⟩ b hb s f]
      show _ + ∑ j ∈ Finset.range 2048, termN m c b s f ((n + 1) % 8 * 2048 + j) = _
      rw [show (n + 1) % 8 + 1 = n % 8 + 1 + 1 from by omega, show (n % 8 + 1 + 1) * 2048 = (n % 8 + 1) * 2048 + 2048 from by ring,
        Finset.sum_range_add, show (n + 1) % 8 = n % 8 + 1 from by omega]

end Invariant

section Final

variable (m : (ℓ : Loc nD τ sig) → Buf (Elt Ideal) ℓ) (ρ : Dev nD → PrngReg)

/-- The kernel's own array `[16, 128, 2048]`: at `(b, f, s)` the sum of the terms of all 16384 rows of batch `b`. -/
def koutAt (c : Dev nD) (b : Fin 16) (f : Fin 128) (s : Fin 2048) : EReal :=
  ∑ l ∈ Finset.range 16384, termN m c b s f l
def kout (c : Dev nD) : S16x128x2048.Idx → EReal := fun i => koutAt m c (i 0) (i 1) (i 2)

/-- An index of the array is in point `t`'s block iff each coordinate is in the block's range on its axis. -/
theorem mem_blk (t : Fin cfg0.N) (i : S16x128x2048.Idx) :
    i ∈ ((cfg0.win 2).blk t).view.set ↔ ∀ a : Fin 3, win0_2.index t a * S1x128x2048.size a ≤ (i a).val ∧ (i a).val < win0_2.index t a * S1x128x2048.size a + S1x128x2048.size a := by
  show i ∈ ((View.whole main_v2).slice (win0_2.rect t)).set ↔ _
  rw [View.set_slice_whole, Rect.mem_set_unit]
  exact Iff.rfl

set_option maxRecDepth 65536 in
/-- The block of batch `b` is written back once, after the batch's last tile, holding the full sums: it is the
    block of `kout`. -/
theorem flushed_eq (c : Dev nD) (t : Fin cfg0.N) (hf : (cfg0.win 2).flush t = true) :
    (dats m 0 c).flushed 2 t = ((cfg0.win 2).blk t).view.read (Elt Ideal) (kout m c) := by
  have h7 : t.val % 8 = 7 := (flush0_2 t).mp hf
  have hN : t.val < 128 := lt_of_lt_of_eq t.isLt (show cfg0.N = 128 from N_0)
  have hb : t.val / 8 < 16 := by omega
  obtain ⟨-, -, -, -, -, -, e0, e1, e2⟩ := idx_facts t
  show (cfg0.win 2).cut (grid0.coords t) ((dats m 0 c).after 2 t) = _
  rw [after0_2]
  have key : ∀ y : S1x128x2048.Idx, outsAt0 m c t.val t.isLt y = kout m c (((cfg0.win 2).blk t).view.emb y) := by
    intro y
    obtain ⟨u, f, s, rfl⟩ : ∃ (u : Fin 1) (f : Fin 128) (s : Fin 2048), y = ix3 u f s := ⟨y 0, y 1, y 2, eq_ix3 y⟩
    obtain rfl : u = 0 := Subsingleton.elim _ _
    have hemb : ((cfg0.win 2).blk t).view.emb (ix3 (0 : Fin 1) f s) = (ix3 (⟨t.val / 8, hb⟩ : Fin 16) f s : S16x128x2048.Idx) := by
      funext a
      apply Fin.ext
      match a with
      | ⟨0, _⟩ => show win0_2.index t (0 : Fin 3) * 1 + 1 * 0 = t.val / 8; omega
      | ⟨1, _⟩ => show win0_2.index t (1 : Fin 3) * 128 + 1 * f.val = f.val; omega
      | ⟨2, _⟩ => show win0_2.index t (2 : Fin 3) * 2048 + 1 * s.val = s.val; omega
    rw [hemb, outsAt_eq m c t.val t.isLt ⟨t.val / 8, hb⟩ rfl s f, h7]
    rfl
  funext y
  rw [View.read_apply]
  show outsAt0 m c t.val t.isLt y = kout m c (((cfg0.win 2).blk t).view.emb y)
  exact key y

/-- Every index of the array lies in the block written back after its batch's last tile. -/
theorem cover (i : S16x128x2048.Idx) :
    ∃ t : Fin cfg0.N, (cfg0.win 2).flush t = true ∧ i ∈ ((cfg0.win 2).blk t).view.set := by
  have h0 : (i 0).val < 16 := (i 0).isLt
  have h1 : (i 1).val < 128 := (i 1).isLt
  have h2 : (i 2).val < 2048 := (i 2).isLt
  have hN : cfg0.N = 128 := N_0
  have hlt : (i 0).val * 8 + 7 < cfg0.N := by rw [hN]; omega
  refine ⟨⟨(i 0).val * 8 + 7, hlt⟩, (flush0_2 _).mpr (by show ((i 0).val * 8 + 7) % 8 = 7; omega), ?_⟩
  obtain ⟨-, -, -, -, -, -, e0, e1, e2⟩ := idx_facts ⟨(i 0).val * 8 + 7, hlt⟩
  have e0' : win0_2.index ⟨(i 0).val * 8 + 7, hlt⟩ (0 : Fin 3) = ((i 0).val * 8 + 7) / 8 := e0
  rw [mem_blk]
  intro a
  match a with
  | ⟨0, _⟩ => show win0_2.index ⟨(i 0).val * 8 + 7, hlt⟩ (0 : Fin 3) * 1 ≤ (i 0).val ∧ (i 0).val < win0_2.index ⟨(i 0).val * 8 + 7, hlt⟩ (0 : Fin 3) * 1 + 1; omega
  | ⟨1, _⟩ => show win0_2.index ⟨(i 0).val * 8 + 7, hlt⟩ (1 : Fin 3) * 128 ≤ (i 1).val ∧ (i 1).val < win0_2.index ⟨(i 0).val * 8 + 7, hlt⟩ (1 : Fin 3) * 128 + 128; omega
  | ⟨2, _⟩ => show win0_2.index ⟨(i 0).val * 8 + 7, hlt⟩ (2 : Fin 3) * 2048 ≤ (i 2).val ∧ (i 2).val < win0_2.index ⟨(i 0).val * 8 + 7, hlt⟩ (2 : Fin 3) * 2048 + 2048; omega

/-- The kernel's array after the region. -/
theorem final (c : Dev nD) : (dats m 0 c).arrAt 2 cfg0.N = kout m c :=
  (dats m 0 c).arrAt_eq_of_cover 2 (kout m c) (flushed_eq m c) cover

/-- The transposed array is the segment sum of the three argument arrays. -/
theorem transposed_eq (c : Dev nD) :
    transpose S16x2048x128 [0, 2, 1] (kout m c) transposes_S16x128x2048_S16x2048x128_0_2_1
      = Cert.SegSum.segSum (m ((c : Thread nD τ).loc main_arg0)) (m ((c : Thread nD τ).loc main_arg1)) (m ((c : Thread nD τ).loc main_arg3)) := by
  funext i
  obtain ⟨b, s, f, rfl⟩ : ∃ (b : Fin 16) (s : Fin 2048) (f : Fin 128), i = ix3 b s f := ⟨i 0, i 1, i 2, eq_ix3 i⟩
  refine (transpose_ix3_021_apply (kout m c) transposes_S16x128x2048_S16x2048x128_0_2_1 b s f).trans ?_
  show koutAt m c b f s = Cert.SegSum.segSumAt _ _ _ b s f
  unfold koutAt Cert.SegSum.segSumAt
  rw [Finset.sum_range]
  refine Finset.sum_congr rfl (fun l _ => ?_)
  unfold termN
  rw [dif_pos l.isLt]

/-- What the line after the region leaves in the result: the kernel's array with its last two axes exchanged. -/
theorem tail_eq (c : Dev nD) : Pipeline.afterTail₀ cfgs (dats m) 0 (V0 m) [hostOps1] c main_v3
    = transpose S16x2048x128 [0, 2, 1] (kout m c) transposes_S16x128x2048_S16x2048x128_0_2_1 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2) = kout m c :=
    (Pipeline.withArrays_arr spec0 launch0.win.arr_inj c _ _ 2).trans (final m c)
  rw [e]

end Final

section Run

variable (m : (ℓ : Loc nD τ sig) → Buf (Elt Ideal) ℓ) (ρ : Dev nD → PrngReg)

/-- THE KERNEL'S RUN, READ: every weakly fair execution ends with the result at the segment sum of the argument
    arrays and the arguments unchanged — for every input. -/
theorem run : θ_run defs (onTc (τ := τ) (main (F := Ideal))) ⟨m, fun _ => 0, ρ⟩ fun r => ∀ c : Dev nD,
      r.2.mem ((c : Thread nD τ).loc main_v3)
        = Cert.SegSum.segSum (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v3 (Pipeline.mem_restRefs_of main_v3 (by decide) (by decide))).trans ((tail_eq m c).trans (transposed_eq m c)),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Run

end Cert.KernelIdeal.KValue

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.RefValue.lean ====
import proofs.«411509_j9783935500521_3_alg».proof.Defs
import proofs.«411509_j9783935500521_3_alg».proof.Proof.Gen.ReferenceIdeal.Run
import proofs.«411509_j9783935500521_3_alg».proof.Proof.Gen.ReferenceIdeal.Read
import proofs.«411509_j9783935500521_3_alg».proof.Proof.Spec
import proofs.«411509_j9783935500521_3_alg».proof.Proof.LibIndexed

noncomputable section

namespace Cert.ReferenceIdeal.RefValue

open Cert.ReferenceIdeal Idealize.ShloMosaic Idealize.ShloMosaic.ValueIdx

open Cert.ReferenceIdeal.Read

/-- The flat row number of row `l` of batch `b`: `16384 · b + l`. -/
def flatRow (b : Fin 16) (l : Fin 16384) : Fin 262144 :=
  ⟨b.val * 16384 + l.val, by have := b.isLt; have := l.isLt; omega⟩

/-- The flat rows are the pairs (batch, row). -/
def flatEquiv : Fin 16 × Fin 16384 ≃ Fin 262144 where
  toFun p := flatRow p.1 p.2
  invFun e := (⟨e.val / 16384, by have := e.isLt; omega⟩, ⟨e.val % 16384, by have := e.isLt; omega⟩)
  left_inv p := by
    obtain ⟨b, l⟩ := p
    have hb := b.isLt
    have hl := l.isLt
    refine Prod.ext (Fin.ext ?_) (Fin.ext ?_)
    · show (b.val * 16384 + l.val) / 16384 = b.val
      omega
    · show (b.val * 16384 + l.val) % 16384 = l.val
      omega
  right_inv e := by
    have he := e.isLt
    refine Fin.ext ?_
    show e.val / 16384 * 16384 + e.val % 16384 = e.val
    omega

/-- A sum over the flat rows is the double sum over the batches and the rows of a batch. -/
theorem sum_flat {M : Type*} [AddCommMonoid M] (g : Fin 262144 → M) :
    ∑ e, g e = ∑ b : Fin 16, ∑ l : Fin 16384, g (flatRow b l) := by
  rw [← Equiv.sum_comp flatEquiv g, Fintype.sum_prod_type]
  rfl

/-- The start word of flat row `(b, l)`: the segment word plus the batch offset `2048 · b`. -/
theorem ids_read (x1 : IVec S16x16384 32) (b : Fin 16) (l : Fin 16384) :
    val_main_v11 (F := Ideal) x1 (ix2 (flatRow b l) (0 : Fin 1))
      = x1 (ix2 b l) + BitVec.ofNat 32 b.val * 2048#32 := by
  have hi : idx_main_v6 (idx_main_v11 (ix2 (flatRow b l) (0 : Fin 1))) = ix2 b l := by
    have hb := b.isLt
    have hl := l.isLt
    funext a
    match a with
    | ⟨0, _⟩ => exact Fin.ext (by show (b.val * 16384 + l.val) / 16384 = b.val; omega)
    | ⟨1, _⟩ => exact Fin.ext (by show (b.val * 16384 + l.val) % 16384 = l.val; omega)
  rw [val_main_v11_apply, val_main_v6_apply, hi, val_main_v5_apply, val_main_v4_apply, val_main_v3_apply,
    val_main_v1_apply, val_main_v2_apply, val_main_v0_apply, val_main_c_apply]
  rfl

/-- The update of flat row `(b, l)` at feature `f`: the data where the mask keeps the row, zero elsewhere. -/
theorem upd_read (x0 : FVec Ideal S16x16384x128 .f32) (x3 : IVec S16x16384 1) (b : Fin 16) (l : Fin 16384)
    (f : Fin 128) :
    val_main_v9 (F := Ideal) x0 x3 (ix2 (flatRow b l) f)
      = if x3 (ix2 b l) = 1#1 then x0 (ix3 b l f) else 0 := by
  have hi : idx_main_v9 (ix2 (flatRow b l) f) = ix3 b l f := by
    have hb := b.isLt
    have hl := l.isLt
    have hf := f.isLt
    funext a
    match a with
    | ⟨0, _⟩ => exact Fin.ext (by show ((b.val * 16384 + l.val) * 128 + f.val) / 2097152 = b.val; omega)
    | ⟨1, _⟩ => exact Fin.ext (by show ((b.val * 16384 + l.val) * 128 + f.val) / 128 % 16384 = l.val; omega)
    | ⟨2, _⟩ => exact Fin.ext (by show ((b.val * 16384 + l.val) * 128 + f.val) % 128 = f.val; omega)
  have hj : idx_main_v7 (idx_main_call0_v0 (ix3 b l f)) = ix2 b l := by
    funext a
    match a with
    | ⟨0, _⟩ => rfl
    | ⟨1, _⟩ => rfl
  rw [val_main_v9_apply, hi, val_main_v8_apply, val_main_call0_v0_apply, val_main_v7_apply, hj,
    val_main_call0_v1_apply, val_main_cst_apply, Ideal.ofBits_def, Ideal.ofBits_zero_f32]
  rfl

/-- A word in `[0, 2048)` plus the batch offset `2048 · b'` names table row `2048 · b + n` exactly when the batch
    is `b` and the word is `n`: the 32-bit sum does not wrap, being below `32768`. -/
theorem flat_id_iff (w : BitVec 32) (hw0 : 0 ≤ w.toInt) (hw1 : w.toInt < 2048) (b' b : Fin 16) (n : Fin 2048) :
    (w + BitVec.ofNat 32 b'.val * 2048#32).toInt = ((b.val * 2048 + n.val : ℕ) : ℤ)
      ↔ b' = b ∧ w = BitVec.ofNat 32 n.val := by
  have hb' := b'.isLt
  have hb := b.isLt
  have hn := n.isLt
  have hwlt : w.toNat < 2 ^ 32 := w.isLt
  have hwi := BitVec.toInt_eq_toNat_cond w
  have hwn : w.toNat < 2048 := by
    split at hwi <;> omega
  have hsum : (w + BitVec.ofNat 32 b'.val * 2048#32).toNat = b'.val * 2048 + w.toNat := by
    rw [BitVec.toNat_add, BitVec.toNat_mul, BitVec.toNat_ofNat, BitVec.toNat_ofNat]
    omega
  have hsi := BitVec.toInt_eq_toNat_cond (w + BitVec.ofNat 32 b'.val * 2048#32)
  rw [hsum] at hsi
  have hsi' : (w + BitVec.ofNat 32 b'.val * 2048#32).toInt = ((b'.val * 2048 + w.toNat : ℕ) : ℤ) := by
    split at hsi <;> omega
  rw [hsi']
  constructor
  · intro h
    have h' : b'.val * 2048 + w.toNat = b.val * 2048 + n.val := by exact_mod_cast h
    refine ⟨Fin.ext (by omega), BitVec.eq_of_toNat_eq ?_⟩
    rw [BitVec.toNat_ofNat]
    omega
  · rintro ⟨rfl, rfl⟩
    rw [BitVec.toNat_ofNat]
    have : n.val % 2 ^ 32 = n.val := by omega
    rw [this]

theorem result_eq (x0 : FVec Ideal S16x16384x128 .f32) (x1 : IVec S16x16384 32) (x3 : IVec S16x16384 1)
    (hr : ∀ (b : Fin 16) (l : Fin 16384), 0 ≤ (x1 (ix2 b l)).toInt ∧ (x1 (ix2 b l)).toInt < 2048) :
    Cert.ReferenceIdeal.Read.val_main_v13 (F := Ideal) x0 x1 x3 = Cert.SegSum.segSum x0 x1 x3 := by
  funext i
  obtain ⟨b, n, f, rfl⟩ : ∃ b n f, i = ix3 b n f := ⟨i 0, i 1, i 2, eq_ix3 i⟩
  have hb := b.isLt
  have hn := n.isLt
  have hf := f.isLt
  -- the entry (b, n, f) of the result is the entry (2048 · b + n, f) of the table
  have hidx : idx_main_v13 (ix3 b n f) = ix2 (⟨b.val * 2048 + n.val, by omega⟩ : Fin 32768) f := by
    funext a
    match a with
    | ⟨0, _⟩ => exact Fin.ext (by show ((b.val * 2048 + n.val) * 128 + f.val) / 128 = b.val * 2048 + n.val; omega)
    | ⟨1, _⟩ => exact Fin.ext (by show ((b.val * 2048 + n.val) * 128 + f.val) % 128 = f.val; omega)
  rw [Cert.SegSum.segSum_apply, val_main_v13_apply, hidx]
  unfold val_main_v12
  -- the table entry: zero plus the updates of the flat rows whose start word names row 2048 · b + n
  rw [Cert.Rgcn.Lib.scatterAdd_rows_apply scatter_S32768x128_S262144x1_S262144x128_1_0_0_1
      Facts₀.scatter_S32768x128_S262144x1_S262144x128_1_0_0_1_wf rfl,
    val_main_v10_apply, val_main_cst_0_apply, Ideal.ofBits_def, Ideal.ofBits_zero_f32, zero_add,
    Finset.sum_filter, sum_flat]
  unfold Cert.SegSum.segSumAt
  -- only the flat rows of batch b can name a row of block b
  rw [Fintype.sum_eq_single b]
  · refine Finset.sum_congr rfl (fun l _ => ?_)
    rw [ids_read, upd_read, if_congr (flat_id_iff _ (hr b l).1 (hr b l).2 b b n) rfl rfl]
    unfold Cert.SegSum.term Cert.SegSum.counts
    by_cases hm : x3 (ix2 b l) = 1#1 <;> by_cases hi : x1 (ix2 b l) = BitVec.ofNat 32 n.val <;> simp [hm, hi]
  · intro b' hne
    refine Finset.sum_eq_zero (fun l _ => ?_)
    rw [ids_read, if_neg (fun h => hne ((flat_id_iff _ (hr b' l).1 (hr b' l).2 b' b n).mp h).1)]

end Cert.ReferenceIdeal.RefValue

end
-- ==== Proof.lean ====
/-
  The kernel and its reference compute one function: the batched masked segment sum.

  For a batch `b`, a segment `n` and a feature `f`,

      result[b, n, f] = Σ_l [mask[b, l] ∧ ids[b, l] = n] · data[b, l, f]        (`Cert.SegSum.segSum`).

  THE KERNEL sends every masked row to the word 2048, which names no segment, and then, for each batch, walks the
  16384 rows in eight tiles of 2048: a tile's contribution is the product of the tile's data rows with the one-hot
  matrix `[word_j = n]`, that is `Σ_j [word_j = n] · data[j, f]` (a product with 1 keeps an extended real, a product
  with 0 is 0: no finiteness is used), added to the running block, which the first tile of a batch starts from zero.
  By induction on the grid point the running block after tile `k` of batch `b` holds the sum of the terms of the
  rows of the tiles `0 … k`; the block is written back after the eighth tile, holding the whole sum; the last line
  exchanges the last two axes. This holds for every input.

  THE REFERENCE adds the batch offset `2048 · b` to every id, zeroes the masked rows and scatter-adds all
  `16 · 16384` rows into one table of `16 · 2048` segments. Row `(b', l)` lands on table row `2048 · b + n` exactly
  when its id plus `2048 · b'`, read signed, is `2048 · b + n`; for ids in `[0, 2048)` that is `b' = b` and
  `id = n`, so the table row holds the same sum. Outside that range a row of batch `b'` lands in another batch's
  block (or nowhere), which the kernel never does: the two programs agree exactly on ids in `[0, 2048)`, the range
  the precondition states.

  The three frames: the kernel's two are the generated frame runs; the reference's is its run with the result
  dropped. The idealization rewrote nothing, so `preserves` is `True`.
-/
import proofs.«411509_j9783935500521_3_alg».proof.Defs
import proofs.«411509_j9783935500521_3_alg».proof.Proof.Gen.Kernel
import proofs.«411509_j9783935500521_3_alg».proof.Proof.Gen.Kernel.Skeleton
import proofs.«411509_j9783935500521_3_alg».proof.Proof.Gen.Kernel.Launch
import proofs.«411509_j9783935500521_3_alg».proof.Proof.Gen.Kernel.Points
import proofs.«411509_j9783935500521_3_alg».proof.Proof.Gen.Kernel.Frame
import proofs.«411509_j9783935500521_3_alg».proof.Proof.Gen.KernelIdeal
import proofs.«411509_j9783935500521_3_alg».proof.Proof.Gen.KernelIdeal.Skeleton
import proofs.«411509_j9783935500521_3_alg».proof.Proof.Gen.KernelIdeal.Launch
import proofs.«411509_j9783935500521_3_alg».proof.Proof.Gen.KernelIdeal.Points
import proofs.«411509_j9783935500521_3_alg».proof.Proof.Gen.KernelIdeal.Frame
import proofs.«411509_j9783935500521_3_alg».proof.Proof.Gen.ReferenceIdeal
import proofs.«411509_j9783935500521_3_alg».proof.Proof.Gen.ReferenceIdeal.Run
import proofs.«411509_j9783935500521_3_alg».proof.Proof.Gen.ReferenceIdeal.Read
import proofs.«411509_j9783935500521_3_alg».proof.Proof.Gen.Pre_finite_inputs
import proofs.«411509_j9783935500521_3_alg».proof.Proof.Spec
import proofs.«411509_j9783935500521_3_alg».proof.Proof.PreRange
import proofs.«411509_j9783935500521_3_alg».proof.Proof.KValue
import proofs.«411509_j9783935500521_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the segment sum of the argument arrays: the kernel for every input, the reference because
    the precondition keeps every id in `[0, 2048)`. -/
theorem algebraic : Cert.algebraic_KernelIdeal_ReferenceIdeal := by
  intro m ρ m' ρ' hpre hagree
  refine ⟨fun c => Cert.SegSum.segSum (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.2]
  exact Cert.ReferenceIdeal.RefValue.result_eq _ _ _
    (fun b l => Cert.PreRange.range_of_pre _ _ _ _ (hpre c) b l)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
